-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S8192x2048 .f32) (main_arg1 : FVec F S64x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S8192x2048 : Shape := ⟨2, ![8192, 2048]⟩
abbrev S64x2048 : Shape := ⟨2, ![64, 2048]⟩
abbrev S8192x64 : Shape := ⟨2, ![8192, 64]⟩
abbrev S1024x2048 : Shape := ⟨2, ![1024, 2048]⟩
abbrev S1024x64 : Shape := ⟨2, ![1024, 64]⟩

abbrev nBuf : Space → Nat
  | .hbm => 3
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S8192x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  h_S1024x64 : 0 < S1024x64.numel
  dot_S1024x2048_S64x2048_S1024x64_1_1_0_0_n_n_wf : DotDims.WF S1024x2048 S64x2048 S1024x64 [1] [1] [0] [0] [] []
  hrank0 : 0 < grid0.rank
  k0_off1_inb : ∀ i : grid0.Coords, ∀ a, (k0_off1 i) a + S1024x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S64x2048 : Shape := ⟨2, ![64, 2048]⟩
abbrev S2048x64 : Shape := ⟨2, ![2048, 64]⟩
abbrev S8192x64 : Shape := ⟨2, ![8192, 64]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2048x64, .f32⟩
  | .hbm, ⟨3, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x2048_S2048x64_1_0 : S64x2048.Transposes [1, 0] S2048x64
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.KernelBody.lean ====
/-
  The gate kernel's body and its launch, at any float instance.

  The kernel keeps the whole 8192 × 64 result in ONE staging buffer for all eight grid points and writes it back only
  after the last. At point `t` it loads the 1024 × 2048 block of token rows `[1024 t, 1024 t + 1024)` and the whole
  64 × 2048 gate weight, contracts the hidden axis, and stores the 1024 × 64 product into rows `[1024 t, 1024 t + 1024)`
  of the result buffer; the other rows are left as the point found them. So what one point leaves in the buffer is not a
  function of the arguments alone (before the first store the buffer holds anything): it is a RELATION between what the
  point was handed and what it leaves — "these 1024 rows are the product, every other row is unchanged" (`rowsWrite`).
  The proof data below state exactly that relation for the result's window, name the two input blocks, and the body is
  run against it; the launch then says of the result array only that it is related, write-back by write-back, to what
  the points left. The value of the result is read off that relation in another module.
-/
import proofs.«156389_g37881611550758_retrytranche2_1089_19_alg».proof.Proof.Gen.Kernel.Frame
import proofs.«156389_g37881611550758_retrytranche2_1089_19_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point's store does to the result buffer -/

/-- The buffer `Y` with rows `[o, o + 1024)` replaced by the 1024 × 64 block `P` (row `o + r` takes row `r` of `P`),
    every other row kept. -/
def rowsWrite (o : ℕ) (P : Vec F S1024x64 .f32) (Y : Vec F S8192x64 .f32) : Vec F S8192x64 .f32 := fun y =>
  if h : o ≤ (y (0 : Fin 2)).val ∧ (y (0 : Fin 2)).val < o + 1024 then
    P (Rect.unitLocal (s := S8192x64) (off := ![o, 0]) (size := S1024x64.size) y (Rect.unit_rows_mem y rfl rfl h))
  else Y y

/-- The store's offsets at grid point `t`, as the kernel computes them (`1024 · t` in 32-bit words, cast to an index),
    are row `1024 t`, column `0`: decided at each of the eight points. -/
theorem off_eq : ∀ t : Fin cfg0.N, k0_off1 (grid0.coords t) = ![1024 * t.val, 0] :=
  (by decide +kernel : ∀ t : Fin grid0.N, k0_off1 (grid0.coords t) = ![1024 * t.val, 0])

/-- One store of `P` through the rectangle of 1024 whole rows at offsets `(o, 0)`, read back through the whole buffer. -/
theorem stored_eq (arg3 : Memref sig .tc .vmem S8192x64 .f32) (harg3 : arg3.IsWhole) (i : grid0.Coords) (o : ℕ)
    (ho : k0_off1 i = ![o, 0]) (P : Vec F S1024x64 .f32) (Y : Vec F S8192x64 .f32) :
    View.read (Elt F) arg3.view (arg3.view.writes (Elt F) (harg3.unread Y)
      [⟨Rect.unit (s := S8192x64) (k0_off1 i) S1024x64.size (k0_off1_inb i), P⟩]) = rowsWrite o P Y := by
  funext y
  rw [View.read_writes_cons_rows arg3.view (harg3.unread Y) (k0_off1_inb i) P [] y ho rfl rfl]
  unfold rowsWrite
  rw [View.writes_nil, harg3.read_unread]
  rfl

/-! ## The body's triple -/

set_option maxHeartbeats 1000000 in
/-- On whole staging memrefs holding `x0` (a block of token rows), `x1` (the gate weight) and `y2` (the result buffer
    as the point finds it), the body runs and hands the inputs back as they were and the result buffer with the
    point's rows replaced by the product. -/
theorem kernelRun (c : Dev nD) (i : grid0.Coords) (o : ℕ) (ho : k0_off1 i = ![o, 0])
    (arg1 : Memref sig .tc .vmem S1024x2048 .f32) (harg1 : arg1.IsWhole) (arg2 : Memref sig .tc .vmem S64x2048 .f32) (harg2 : arg2.IsWhole)
    (arg3 : Memref sig .tc .vmem S8192x64 .f32) (harg3 : arg3.IsWhole)
    (x0 : Vec F S1024x2048 .f32) (x1 : Vec F S64x2048 .f32) (y2 : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y2
            ∗ (iprop(owns (c : Thread nD τ) arg1 fullShare x0 ∗ owns (c : Thread nD τ) arg2 fullShare x1
                ∗ owns (c : Thread nD τ) arg3 fullShare (rowsWrite o (k0_pay1 x0 x1) y2)) -∗ K ⟨⟩))
          ⊢ wp frame (wpE (defs₀ (F := F)) Variants.none c none) E (cc0__gate_kernel i arg1 harg1 arg2 harg2 arg3 harg3) K := by
    intro E K
    simp only [cc0__gate_kernel_eq_skeleton]; unfold cc0__gate_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [stored_eq arg3 harg3 i o ho]
    simp only [View.readAt_eq_ld, harg1.read_unread, harg2.read_unread,
      View.ld_unit_zero (S := S1024x2048) (off := ![0, 0]) (funext fun a => by match a with | ⟨0, _⟩ => rfl | ⟨1, _⟩ => rfl),
      View.ld_unit_zero (S := S64x2048) (off := ![0, 0]) (funext fun a => by match a with | ⟨0, _⟩ => rfl | ⟨1, _⟩ => rfl)]

/-! ## The proof data -/

/-- The block of token rows point `t` is handed: rows `[1024 t, 1024 t + 1024)` of the activations. -/
abbrev xblk (c : Dev nD) (t : Fin cfg0.N) : Vec F S1024x2048 .f32 := iblk m c 0 t

/-- The gate weight's one block, the whole array, as the first point fetches it. -/
abbrev wblk (c : Dev nD) : Vec F S64x2048 .f32 := iblk m c 1 t0_0

/-- The proof data of the one pipeline on core `c`: the arrays as the region finds them; after the body at point `t`
    the two inputs' buffers at their blocks, and the result's buffer in the relation "rows `[1024 t, 1024 t + 1024)` are
    the product of the two blocks, the rest as found"; the class's invariant; nothing owed; full shares. -/
def rd (c : Dev nD) : RDat τ (Elt F) Unit ℕ (UR sig nD τ) ℕ cfg0 c where
  A w := V m c (Pipeline.arrRef spec0 w)
  after w t Y X := match w with
    | ⟨0, _⟩ => X = iblk m c 0 t
    | ⟨1, _⟩ => X = wblk m c
    | ⟨2, _⟩ => X = rowsWrite (1024 * t.val) (k0_pay1 (xblk m c t) (wblk m c)) Y
  Φ _ := Pipeline.ΦA spec0 c
  q _ := fullShare
  owed _ := 0

theorem A_eq (c : Dev nD) (w : Fin cfg0.W) : (rd m c).A w = V m c (Pipeline.arrRef spec0 w) := by
  dsimp only [rd]

theorem after0 (c : Dev nD) (t : Fin cfg0.N) (Y X) : (rd m c).after 0 t Y X ↔ X = iblk m c 0 t := Iff.rfl
theorem after1 (c : Dev nD) (t : Fin cfg0.N) (Y X) : (rd m c).after 1 t Y X ↔ X = wblk m c := Iff.rfl
theorem after2 (c : Dev nD) (t : Fin cfg0.N) (Y X) :
    (rd m c).after 2 t Y X ↔ X = rowsWrite (1024 * t.val) (k0_pay1 (xblk m c t) (wblk m c)) Y := Iff.rfl

/-! ## What the body finds in the inputs' buffers -/

/-- The activations' window is fetched at every point: its buffer holds the point's block. -/
theorem finds0 (c : Dev nD) (t : Fin cfg0.N) (Y) (h : (rd m c).Finds 0 t Y) : Y = iblk m c 0 t := by
  obtain ⟨d, rfl⟩ := ((rd m c).finds_of_fetch (fetch0_0 t) Y).mp h
  unfold RDat.fetched RDat.blockOf iblk
  rfl

/-- The gate weight's window is never written back. -/
theorem flush1 : ∀ t : Fin cfg0.N, (cfg0.win 1).flush t = false :=
  (by decide +kernel : ∀ t : Fin grid0.N, win0_1.flush t = false)

/-- The gate weight's window is fetched at the first point only, and every point leaves it as it is: its buffer holds
    the whole weight at every point. -/
theorem finds1 (c : Dev nD) (t : Fin cfg0.N) (Y) (h : (rd m c).Finds 1 t Y) : Y = wblk m c := by
  by_cases ht : t.val % 8 = 0
  · obtain ⟨d, rfl⟩ := ((rd m c).finds_of_fetch ((fetch0_1 t).mpr ht) Y).mp h
    have hlt : t.val < grid0.N := t.isLt
    rw [N_0] at hlt
    have e : t = t0_0 := Fin.ext (by show t.val = 0; omega)
    subst e
    show _ = iblk m c 1 t0_0
    unfold RDat.fetched RDat.blockOf iblk
    rfl
  · have hf : (cfg0.win 1).fetch t = false := by
      cases hx : (cfg0.win 1).fetch t
      · rfl
      · exact absurd ((fetch0_1 t).mp hx) ht
    have ht0 : t.val ≠ 0 := fun h0 => ht (by rw [h0])
    rcases ((rd m c).finds_of_pos hf ht0 Y).mp h with hfl | ⟨Y', -, hY⟩
    · rw [flush1] at hfl; exact absurd hfl Bool.false_ne_true
    · exact hY

/-! ## The body obligation -/

/-- The body at any point, on buffers holding what it may find there: the inputs come back as they were, the result's
    buffer with the point's rows replaced by the product; the invariant passes through unread; nothing is owed. -/
theorem sound_body (c : Dev nD) (t : Fin cfg0.N) (Y : (w : Fin cfg0.W) → (cfg0.win w).block.Idx → Elt F (cfg0.win w).elt)
    (h0 : Y 0 = iblk m c 0 t) (h1 : Y 1 = wblk m c) :
    iprop((rd m c).Φ t.castSucc ∗ (rd m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2))
      ⊢ wp frame (wpE (defs₀ (F := F)) Variants.none c none) Set.univ (bodyAt0 t) (fun _ =>
        iprop((rd m c).Φ t.succ ∗ (rd m c).owesAt () t.succ
          ∗ (∃ X, ⌜(rd m c).after 0 t (Y 0) X⌝ ∗ owns (c : Thread nD τ) ((cfg0.win 0).stage (cfg0.slots t 0)) fullShare X)
          ∗ (∃ X, ⌜(rd m c).after 1 t (Y 1) X⌝ ∗ owns (c : Thread nD τ) ((cfg0.win 1).stage (cfg0.slots t 1)) fullShare X)
          ∗ (∃ X, ⌜(rd m c).after 2 t (Y 2) X⌝ ∗ owns (c : Thread nD τ) ((cfg0.win 2).stage (cfg0.slots t 2)) fullShare X))) := by
  unfold bodyAt0
  rw [show (rd m c).Φ t.succ = (rd m c).Φ t.castSucc from rfl,
    show (rd m c).owesAt () t.succ = (rd m c).owesAt () t.castSucc from rfl]
  iintro ⟨HΦ, Ho, H0, H1, H2⟩
  iapply ((kernelRun c (grid0.coords t) (1024 * t.val) (off_eq t) _ _ _ _ _ _ (Y 0) (Y 1) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr; · ipureintro; exact (after0 m c t _ _).mpr h0
    iexact H0
  isplitl [H1]
  · iexists (Y 1); isplitr; · ipureintro; exact (after1 m c t _ _).mpr h1
    iexact H1
  iexists _; isplitr; swap; · iexact H2
  ipureintro
  refine (after2 m c t _ _).mpr ?_
  rw [h0, h1]

/-- The library's body obligation of the relational data, at every point. -/
theorem body_obligation (c : Dev nD) : (rd m c).BodyObligation (defs₀ (F := F)) Variants.none () Set.univ := fun t Y hY => by
  rw [bigSep_W0, bigSep_W0]
  exact sound_body m c t Y (finds0 m c t (Y 0) (hY 0)) (finds1 m c t (Y 1) (hY 1))

/-! ## The run and the frame -/

set_option backward.isDefEq.respectTransparency.types false in
/-- From any memory with zero counters every weakly fair execution of @main terminates, and in every final state each
    windowed array holds contents the proof data allow after every write-back, every other unscoped buffer what it held
    at the region's entry. -/
theorem run_main : θ_run defs (onTc (τ := τ) (main (F := F))) (s₀ m ρ) (Pipeline.RDat.FramePost (cfgs 0) (fun c => rd m c) (V m)) :=
  Pipeline.RDat.θ_run_frame cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hΦ := fun _ _ => rfl)

/-- The frame claim's post: the two argument arrays end as they were launched (an input window's array is never
    written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

end Cert.Kernel.Body

end
-- ==== Proof.IdealBody.lean ====
/-
  The gate kernel's body and its launch, at any float instance.

  The kernel keeps the whole 8192 × 64 result in ONE staging buffer for all eight grid points and writes it back only
  after the last. At point `t` it loads the 1024 × 2048 block of token rows `[1024 t, 1024 t + 1024)` and the whole
  64 × 2048 gate weight, contracts the hidden axis, and stores the 1024 × 64 product into rows `[1024 t, 1024 t + 1024)`
  of the result buffer; the other rows are left as the point found them. So what one point leaves in the buffer is not a
  function of the arguments alone (before the first store the buffer holds anything): it is a RELATION between what the
  point was handed and what it leaves — "these 1024 rows are the product, every other row is unchanged" (`rowsWrite`).
  The proof data below state exactly that relation for the result's window, name the two input blocks, and the body is
  run against it; the launch then says of the result array only that it is related, write-back by write-back, to what
  the points left. The value of the result is read off that relation in another module.
-/
import proofs.«156389_g37881611550758_retrytranche2_1089_19_alg».proof.Proof.Gen.KernelIdeal.Frame
import proofs.«156389_g37881611550758_retrytranche2_1089_19_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point's store does to the result buffer -/

/-- The buffer `Y` with rows `[o, o + 1024)` replaced by the 1024 × 64 block `P` (row `o + r` takes row `r` of `P`),
    every other row kept. -/
def rowsWrite (o : ℕ) (P : Vec F S1024x64 .f32) (Y : Vec F S8192x64 .f32) : Vec F S8192x64 .f32 := fun y =>
  if h : o ≤ (y (0 : Fin 2)).val ∧ (y (0 : Fin 2)).val < o + 1024 then
    P (Rect.unitLocal (s := S8192x64) (off := ![o, 0]) (size := S1024x64.size) y (Rect.unit_rows_mem y rfl rfl h))
  else Y y

/-- The store's offsets at grid point `t`, as the kernel computes them (`1024 · t` in 32-bit words, cast to an index),
    are row `1024 t`, column `0`: decided at each of the eight points. -/
theorem off_eq : ∀ t : Fin cfg0.N, k0_off1 (grid0.coords t) = ![1024 * t.val, 0] :=
  (by decide +kernel : ∀ t : Fin grid0.N, k0_off1 (grid0.coords t) = ![1024 * t.val, 0])

/-- One store of `P` through the rectangle of 1024 whole rows at offsets `(o, 0)`, read back through the whole buffer. -/
theorem stored_eq (arg3 : Memref sig .tc .vmem S8192x64 .f32) (harg3 : arg3.IsWhole) (i : grid0.Coords) (o : ℕ)
    (ho : k0_off1 i = ![o, 0]) (P : Vec F S1024x64 .f32) (Y : Vec F S8192x64 .f32) :
    View.read (Elt F) arg3.view (arg3.view.writes (Elt F) (harg3.unread Y)
      [⟨Rect.unit (s := S8192x64) (k0_off1 i) S1024x64.size (k0_off1_inb i), P⟩]) = rowsWrite o P Y := by
  funext y
  rw [View.read_writes_cons_rows arg3.view (harg3.unread Y) (k0_off1_inb i) P [] y ho rfl rfl]
  unfold rowsWrite
  rw [View.writes_nil, harg3.read_unread]
  rfl

/-! ## The body's triple -/

set_option maxHeartbeats 1000000 in
/-- On whole staging memrefs holding `x0` (a block of token rows), `x1` (the gate weight) and `y2` (the result buffer
    as the point finds it), the body runs and hands the inputs back as they were and the result buffer with the
    point's rows replaced by the product. -/
theorem kernelRun (c : Dev nD) (i : grid0.Coords) (o : ℕ) (ho : k0_off1 i = ![o, 0])
    (arg1 : Memref sig .tc .vmem S1024x2048 .f32) (harg1 : arg1.IsWhole) (arg2 : Memref sig .tc .vmem S64x2048 .f32) (harg2 : arg2.IsWhole)
    (arg3 : Memref sig .tc .vmem S8192x64 .f32) (harg3 : arg3.IsWhole)
    (x0 : Vec F S1024x2048 .f32) (x1 : Vec F S64x2048 .f32) (y2 : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y2
            ∗ (iprop(owns (c : Thread nD τ) arg1 fullShare x0 ∗ owns (c : Thread nD τ) arg2 fullShare x1
                ∗ owns (c : Thread nD τ) arg3 fullShare (rowsWrite o (k0_pay1 x0 x1) y2)) -∗ K ⟨⟩))
          ⊢ wp frame (wpE (defs₀ (F := F)) Variants.none c none) E (cc0__gate_kernel i arg1 harg1 arg2 harg2 arg3 harg3) K := by
    intro E K
    simp only [cc0__gate_kernel_eq_skeleton]; unfold cc0__gate_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [stored_eq arg3 harg3 i o ho]
    simp only [View.readAt_eq_ld, harg1.read_unread, harg2.read_unread,
      View.ld_unit_zero (S := S1024x2048) (off := ![0, 0]) (funext fun a => by match a with | ⟨0, _⟩ => rfl | ⟨1, _⟩ => rfl),
      View.ld_unit_zero (S := S64x2048) (off := ![0, 0]) (funext fun a => by match a with | ⟨0, _⟩ => rfl | ⟨1, _⟩ => rfl)]

/-! ## The proof data -/

/-- The block of token rows point `t` is handed: rows `[1024 t, 1024 t + 1024)` of the activations. -/
abbrev xblk (c : Dev nD) (t : Fin cfg0.N) : Vec F S1024x2048 .f32 := iblk m c 0 t

/-- The gate weight's one block, the whole array, as the first point fetches it. -/
abbrev wblk (c : Dev nD) : Vec F S64x2048 .f32 := iblk m c 1 t0_0

/-- The proof data of the one pipeline on core `c`: the arrays as the region finds them; after the body at point `t`
    the two inputs' buffers at their blocks, and the result's buffer in the relation "rows `[1024 t, 1024 t + 1024)` are
    the product of the two blocks, the rest as found"; the class's invariant; nothing owed; full shares. -/
def rd (c : Dev nD) : RDat τ (Elt F) Unit ℕ (UR sig nD τ) ℕ cfg0 c where
  A w := V m c (Pipeline.arrRef spec0 w)
  after w t Y X := match w with
    | ⟨0, _⟩ => X = iblk m c 0 t
    | ⟨1, _⟩ => X = wblk m c
    | ⟨2, _⟩ => X = rowsWrite (1024 * t.val) (k0_pay1 (xblk m c t) (wblk m c)) Y
  Φ _ := Pipeline.ΦA spec0 c
  q _ := fullShare
  owed _ := 0

theorem A_eq (c : Dev nD) (w : Fin cfg0.W) : (rd m c).A w = V m c (Pipeline.arrRef spec0 w) := by
  dsimp only [rd]

theorem after0 (c : Dev nD) (t : Fin cfg0.N) (Y X) : (rd m c).after 0 t Y X ↔ X = iblk m c 0 t := Iff.rfl
theorem after1 (c : Dev nD) (t : Fin cfg0.N) (Y X) : (rd m c).after 1 t Y X ↔ X = wblk m c := Iff.rfl
theorem after2 (c : Dev nD) (t : Fin cfg0.N) (Y X) :
    (rd m c).after 2 t Y X ↔ X = rowsWrite (1024 * t.val) (k0_pay1 (xblk m c t) (wblk m c)) Y := Iff.rfl

/-! ## What the body finds in the inputs' buffers -/

/-- The activations' window is fetched at every point: its buffer holds the point's block. -/
theorem finds0 (c : Dev nD) (t : Fin cfg0.N) (Y) (h : (rd m c).Finds 0 t Y) : Y = iblk m c 0 t := by
  obtain ⟨d, rfl⟩ := ((rd m c).finds_of_fetch (fetch0_0 t) Y).mp h
  unfold RDat.fetched RDat.blockOf iblk
  rfl

/-- The gate weight's window is never written back. -/
theorem flush1 : ∀ t : Fin cfg0.N, (cfg0.win 1).flush t = false :=
  (by decide +kernel : ∀ t : Fin grid0.N, win0_1.flush t = false)

/-- The gate weight's window is fetched at the first point only, and every point leaves it as it is: its buffer holds
    the whole weight at every point. -/
theorem finds1 (c : Dev nD) (t : Fin cfg0.N) (Y) (h : (rd m c).Finds 1 t Y) : Y = wblk m c := by
  by_cases ht : t.val % 8 = 0
  · obtain ⟨d, rfl⟩ := ((rd m c).finds_of_fetch ((fetch0_1 t).mpr ht) Y).mp h
    have hlt : t.val < grid0.N := t.isLt
    rw [N_0] at hlt
    have e : t = t0_0 := Fin.ext (by show t.val = 0; omega)
    subst e
    show _ = iblk m c 1 t0_0
    unfold RDat.fetched RDat.blockOf iblk
    rfl
  · have hf : (cfg0.win 1).fetch t = false := by
      cases hx : (cfg0.win 1).fetch t
      · rfl
      · exact absurd ((fetch0_1 t).mp hx) ht
    have ht0 : t.val ≠ 0 := fun h0 => ht (by rw [h0])
    rcases ((rd m c).finds_of_pos hf ht0 Y).mp h with hfl | ⟨Y', -, hY⟩
    · rw [flush1] at hfl; exact absurd hfl Bool.false_ne_true
    · exact hY

/-! ## The body obligation -/

/-- The body at any point, on buffers holding what it may find there: the inputs come back as they were, the result's
    buffer with the point's rows replaced by the product; the invariant passes through unread; nothing is owed. -/
theorem sound_body (c : Dev nD) (t : Fin cfg0.N) (Y : (w : Fin cfg0.W) → (cfg0.win w).block.Idx → Elt F (cfg0.win w).elt)
    (h0 : Y 0 = iblk m c 0 t) (h1 : Y 1 = wblk m c) :
    iprop((rd m c).Φ t.castSucc ∗ (rd m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2))
      ⊢ wp frame (wpE (defs₀ (F := F)) Variants.none c none) Set.univ (bodyAt0 t) (fun _ =>
        iprop((rd m c).Φ t.succ ∗ (rd m c).owesAt () t.succ
          ∗ (∃ X, ⌜(rd m c).after 0 t (Y 0) X⌝ ∗ owns (c : Thread nD τ) ((cfg0.win 0).stage (cfg0.slots t 0)) fullShare X)
          ∗ (∃ X, ⌜(rd m c).after 1 t (Y 1) X⌝ ∗ owns (c : Thread nD τ) ((cfg0.win 1).stage (cfg0.slots t 1)) fullShare X)
          ∗ (∃ X, ⌜(rd m c).after 2 t (Y 2) X⌝ ∗ owns (c : Thread nD τ) ((cfg0.win 2).stage (cfg0.slots t 2)) fullShare X))) := by
  unfold bodyAt0
  rw [show (rd m c).Φ t.succ = (rd m c).Φ t.castSucc from rfl,
    show (rd m c).owesAt () t.succ = (rd m c).owesAt () t.castSucc from rfl]
  iintro ⟨HΦ, Ho, H0, H1, H2⟩
  iapply ((kernelRun c (grid0.coords t) (1024 * t.val) (off_eq t) _ _ _ _ _ _ (Y 0) (Y 1) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr; · ipureintro; exact (after0 m c t _ _).mpr h0
    iexact H0
  isplitl [H1]
  · iexists (Y 1); isplitr; · ipureintro; exact (after1 m c t _ _).mpr h1
    iexact H1
  iexists _; isplitr; swap; · iexact H2
  ipureintro
  refine (after2 m c t _ _).mpr ?_
  rw [h0, h1]

/-- The library's body obligation of the relational data, at every point. -/
theorem body_obligation (c : Dev nD) : (rd m c).BodyObligation (defs₀ (F := F)) Variants.none () Set.univ := fun t Y hY => by
  rw [bigSep_W0, bigSep_W0]
  exact sound_body m c t Y (finds0 m c t (Y 0) (hY 0)) (finds1 m c t (Y 1) (hY 1))

/-! ## The run and the frame -/

set_option backward.isDefEq.respectTransparency.types false in
/-- From any memory with zero counters every weakly fair execution of @main terminates, and in every final state each
    windowed array holds contents the proof data allow after every write-back, every other unscoped buffer what it held
    at the region's entry. -/
theorem run_main : θ_run defs (onTc (τ := τ) (main (F := F))) (s₀ m ρ) (Pipeline.RDat.FramePost (cfgs 0) (fun c => rd m c) (V m)) :=
  Pipeline.RDat.θ_run_frame cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hΦ := fun _ _ => rfl)

/-- The frame claim's post: the two argument arrays end as they were launched (an input window's array is never
    written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

end Cert.KernelIdeal.Body

end
-- ==== Proof.Spec.lean ====
/-
  The mathematics both programs compute: the router logits of a mixture-of-experts gate.
  For token row `r` of the activations `x` (8192 × 2048) and expert row `e` of the gate weight `w` (64 × 2048),
  entry `(r, e)` of the logits is the inner product `∑ₖ x[r, k] · w[e, k]` over the 2048 hidden coordinates,
  read in the extended reals. Nothing here mentions a program.
-/
import Idealize.ShloMosaic.PureOps.Ideal
import Idealize.ShloMosaic.Lib.ValueIdx

noncomputable section

open scoped BigOperators

namespace Cert.GateSpec

open Idealize.ShloMosaic Idealize.ShloMosaic.ValueIdx

/-- Entry `(r, e)` of the logits: the inner product of token row `r` with expert row `e`. -/
def logits (x : (⟨2, ![8192, 2048]⟩ : Shape).Idx → EReal) (w : (⟨2, ![64, 2048]⟩ : Shape).Idx → EReal) :
    (⟨2, ![8192, 64]⟩ : Shape).Idx → EReal :=
  fun j => ∑ k : Fin 2048, x (ix2 (j 0) k) * w (ix2 (j 1) k)

/-- The logits at explicit coordinates. -/
theorem logits_ix2 (x : (⟨2, ![8192, 2048]⟩ : Shape).Idx → EReal) (w : (⟨2, ![64, 2048]⟩ : Shape).Idx → EReal)
    (r : Fin 8192) (e : Fin 64) : logits x w (ix2 r e) = ∑ k : Fin 2048, x (ix2 r k) * w (ix2 e k) := rfl

end Cert.GateSpec

end
-- ==== Proof.IdealValue.lean ====
/-
  What the gate kernel leaves in its result array, at the ideal instance: the router logits.

  Point `t` of the grid writes rows `[1024 t, 1024 t + 1024)` of the result buffer and keeps the others. Entry `(p, q)` of
  what it writes is the matrix unit's contraction into a zero accumulator, which over the extended reals is the plain sum
  `∑ₖ xblk[p, k] · w[q, k]`; row `p` of the point's block of activations is row `1024 t + p` of the array, and the weight's
  block is the whole weight. So by induction on the point, after point `t` every row below `1024 (t + 1)` of the buffer
  holds the logits — whatever the buffer held before the first store, since each row is stored exactly once and never read.
  After the last point that is every row, and the one write-back (of the whole buffer, onto the whole array) leaves the
  array at the logits.
-/
import proofs.«156389_g37881611550758_retrytranche2_1089_19_alg».proof.Proof.IdealBody
import proofs.«156389_g37881611550758_retrytranche2_1089_19_alg».proof.Proof.Spec
import Idealize.ShloMosaic.Lib.ValueIdx
import Idealize.ShloMosaic.PureOps.Ideal.Laws

set_option maxRecDepth 16384

noncomputable section

open scoped BigOperators

namespace Cert.KernelIdeal.GateValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (RDat)

/-! ## The contraction read at an index -/

/-- The left operand's row is the output's row. -/
theorem lhs_ax0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
/-- The left operand's column is the contracted coordinate. -/
theorem lhs_ax1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
/-- The right operand's row is the output's column: the weight enters untransposed, contracted along its own columns. -/
theorem rhs_ax0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
/-- The right operand's column is the contracted coordinate. -/
theorem rhs_ax1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- Entry `(p, q)` of the body's product: the inner product of row `p` of the block with row `q` of the weight. -/
theorem pay_apply (x0 : Vec Ideal S1024x2048 .f32) (x1 : Vec Ideal S64x2048 .f32) (p : Fin 1024) (q : Fin 64) :
    k0_pay1 (F := Ideal) x0 x1 (ix2 p q) = ∑ k : Fin 2048, x0 (ix2 p k) * x1 (ix2 q k) := by
  unfold k0_pay1
  simp only [matmul]
  rw [Ideal.matmul_constant_zero_apply, ← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 p q) ((contrEquiv1 dot_S1024x2048_S64x2048_S1024x64_1_1_0_0_n_n 2048 rfl rfl).symm k) = ix2 p k := funext fun a => Fin.ext (by
    match a with
    | ⟨0, _⟩ => exact lhs_ax0 _ _
    | ⟨1, _⟩ => exact (lhs_ax1 _ _).trans hk)
  have er : dot_S1024x2048_S64x2048_S1024x64_1_1_0_0_n_n.rhsIdx (ix2 p q) ((contrEquiv1 dot_S1024x2048_S64x2048_S1024x64_1_1_0_0_n_n 2048 rfl rfl).symm k) = ix2 q k := funext fun a => Fin.ext (by
    match a with
    | ⟨0, _⟩ => exact rhs_ax0 _ _
    | ⟨1, _⟩ => exact (rhs_ax1 _ _).trans hk)
  rw [el, er]

/-! ## The blocks read off the arrays -/

variable (m : (ℓ : Loc nD τ sig) → Buf (Elt Ideal) ℓ) (ρ : Dev nD → PrngReg)

/-- The activations and the gate weight as the region finds them. -/
abbrev xarr (c : Dev nD) : Vec Ideal S8192x2048 .f32 := V m c main_arg0
abbrev warr (c : Dev nD) : Vec Ideal S64x2048 .f32 := V m c main_arg1

/-- Block `t` of the activations starts at block-row `t`, column `0`; the weight's and the result's one block at the origin. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : win0_1.index t0_0 (0 : Fin 2) = 0 ∧ win0_1.index t0_0 (1 : Fin 2) = 0 := by decide +kernel
theorem idx2 : win0_2.index t0_7 (0 : Fin 2) = 0 ∧ win0_2.index t0_7 (1 : Fin 2) = 0 := by decide +kernel

/-- Row `p` of block `t` of the activations is row `1024 t + p` of the array. -/
theorem xblk_apply (c : Dev nD) (t : Fin cfg0.N) (p : Fin 1024) (k : Fin 2048) (r : Fin 8192) (hr : r.val = 1024 * t.val + p.val) :
    xblk m c t (ix2 p k) = xarr m c (ix2 r k) := by
  show V m c main_arg0 (((cfg0.win 0).blk t).view.emb (ix2 p k)) = V m c main_arg0 (ix2 r k)
  refine congrArg (V m c main_arg0) (funext fun a => Fin.ext ?_)
  match a with
  | ⟨0, _⟩ =>
    show win0_0.index t (0 : Fin 2) * 1024 + 1 * p.val = r.val
    rw [(idx0 t).1, hr]; omega
  | ⟨1, _⟩ =>
    show win0_0.index t (1 : Fin 2) * 2048 + 1 * k.val = k.val
    rw [(idx0 t).2]; omega

/-- The weight's block is the whole weight. -/
theorem wblk_apply (c : Dev nD) (e : Fin 64) (k : Fin 2048) : wblk m c (ix2 e k) = warr m c (ix2 e k) := by
  show V m c main_arg1 (((cfg0.win 1).blk t0_0).view.emb (ix2 e k)) = V m c main_arg1 (ix2 e k)
  refine congrArg (V m c main_arg1) (funext fun a => Fin.ext ?_)
  match a with
  | ⟨0, _⟩ =>
    show win0_1.index t0_0 (0 : Fin 2) * 64 + 1 * e.val = e.val
    rw [idx1.1]; omega
  | ⟨1, _⟩ =>
    show win0_1.index t0_0 (1 : Fin 2) * 2048 + 1 * k.val = k.val
    rw [idx1.2]; omega

/-! ## The rows done after each point -/

/-- The logits of the arrays as the region finds them. -/
def G (c : Dev nD) : Vec Ideal S8192x64 .f32 := Cert.GateSpec.logits (xarr m c) (warr m c)

/-- One point's step: if the rows below `1024 t` of what the point finds hold the logits, the rows below `1024 (t + 1)` of
    what it leaves do — the point's own rows by the contraction read at an index, the earlier ones kept. -/
theorem rows_step (c : Dev nD) (t : Fin cfg0.N) (Y : Vec Ideal S8192x64 .f32)
    (hY : ∀ y : S8192x64.Idx, (y (0 : Fin 2)).val < 1024 * t.val → Y y = G m c y)
    (y : S8192x64.Idx) (hy : (y (0 : Fin 2)).val < 1024 * (t.val + 1)) :
    rowsWrite (1024 * t.val) (k0_pay1 (xblk m c t) (wblk m c)) Y y = G m c y := by
  unfold rowsWrite
  by_cases h : 1024 * t.val ≤ (y (0 : Fin 2)).val ∧ (y (0 : Fin 2)).val < 1024 * t.val + 1024
  · rw [dif_pos h]
    have hp : (y (0 : Fin 2)).val - 1024 * t.val < 1024 := by omega
    have e : Rect.unitLocal (s := S8192x64) (off := ![1024 * t.val, 0]) (size := S1024x64.size) y (Rect.unit_rows_mem y rfl rfl h)
        = ix2 (⟨(y (0 : Fin 2)).val - 1024 * t.val, hp⟩ : Fin 1024) (⟨(y (1 : Fin 2)).val, idx2_lt1 y⟩ : Fin 64) :=
      funext fun a => Fin.ext (by match a with | ⟨0, _⟩ => rfl | ⟨1, _⟩ => exact Nat.sub_zero _)
    rw [e, pay_apply]
    unfold G Cert.GateSpec.logits
    refine Finset.sum_congr rfl fun k _ => ?_
    rw [xblk_apply m c t _ k (y 0) (by show (y (0 : Fin 2)).val = 1024 * t.val + ((y (0 : Fin 2)).val - 1024 * t.val); omega),
      wblk_apply m c _ k]
    rfl
  · rw [dif_neg h]
    exact hY y (by omega)

/-- The result's window is never fetched. -/
theorem fetch2 : ∀ t : Fin cfg0.N, (cfg0.win 2).fetch t = false :=
  (by decide +kernel : ∀ t : Fin grid0.N, win0_2.fetch t = false)

/-- After point `t`, whatever the result buffer may hold has the logits in every row below `1024 (t + 1)`. -/
theorem leaves2 (c : Dev nD) : ∀ (n : ℕ) (t : Fin cfg0.N), t.val = n → ∀ X, (rd m c).Leaves 2 t X →
    ∀ y : S8192x64.Idx, (y (0 : Fin 2)).val < 1024 * (t.val + 1) → X y = G m c y := by
  intro n
  induction n with
  | zero =>
    intro t ht X ⟨Y, _, hYX⟩ y hy
    rw [(after2 m c t Y X).mp hYX]
    exact rows_step m c t Y (fun y' h' => absurd h' (by rw [ht]; omega)) y hy
  | succ n ih =>
    intro t ht X ⟨Y, hF, hYX⟩ y hy
    rw [(after2 m c t Y X).mp hYX]
    refine rows_step m c t Y ?_ y hy
    have hlt : t.val < grid0.N := t.isLt
    rw [N_0] at hlt
    rcases ((rd m c).finds_of_pos (fetch2 t) (by omega) Y).mp hF with hfl | hL
    · exact absurd ((flush0_2 _).mp hfl) (by show ¬ ((t.val - 1) % 8 = 7); omega)
    · intro y' hy'
      exact ih ⟨t.val - 1, Nat.lt_of_le_of_lt (Nat.sub_le _ _) t.isLt⟩ (by show t.val - 1 = n; omega) Y hL y'
        (by show _ < 1024 * (t.val - 1 + 1); omega)

/-! ## The result array after the run -/

/-- Whatever the result array may hold after every write-back is the logits: only the last point writes back, the
    whole buffer onto the whole array, and by then every row of the buffer holds the logits. -/
theorem final_eq (c : Dev nD) (Fb : Buf (Elt Ideal) ((cfg0.win 2).arr.view.loc (c.tc : Thread nD τ)))
    (h : (rd m c).ArrAt 2 cfg0.N Fb) : Fb = G m c := by
  have h8 : (rd m c).ArrAt 2 (t0_7.val + 1) Fb := h
  rw [(rd m c).ArrAt_succ 2 t0_7, if_pos ((flush0_2 t0_7).mpr rfl)] at h8
  obtain ⟨G₀, X, -, hX, rfl⟩ := h8
  have hXG : ∀ y : S8192x64.Idx, X y = G m c y := fun y =>
    leaves2 m c 7 t0_7 rfl X hX y (by have := idx2_lt0 y; show _ < 1024 * (7 + 1); omega)
  funext i
  have hi : ((cfg0.win 2).blk t0_7).view.emb i = i := funext fun a => Fin.ext (by
    match a with
    | ⟨0, _⟩ =>
      show win0_2.index t0_7 (0 : Fin 2) * 8192 + 1 * (i (0 : Fin 2)).val = (i (0 : Fin 2)).val
      rw [idx2.1]; omega
    | ⟨1, _⟩ =>
      show win0_2.index t0_7 (1 : Fin 2) * 64 + 1 * (i (1 : Fin 2)).val = (i (1 : Fin 2)).val
      rw [idx2.2]; omega)
  have hw := View.write_emb_of_mem (v := ((cfg0.win 2).blk t0_7).view) (Val := Elt Ideal) G₀
    ((cfg0.win 2).cut (cfg0.grid.coords t0_7) X) (Finset.mem_univ i)
  rw [hi] at hw
  exact hw.trans (hXG i)

/-- The kernel's run, with its result named: every weakly fair execution terminates with the result array at the logits
    of the launched arguments and the arguments unchanged. -/
theorem run_value : θ_run defs (onTc (τ := τ) (main (F := Ideal))) ⟨m, fun _ => 0, ρ⟩ (fun r => ∀ c : Dev nD,
      r.2.mem ((c.tc : Thread nD τ).loc main_v0) = Cert.GateSpec.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨final_eq m c _ ((h c).1 2),
      (Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

end Cert.KernelIdeal.GateValue

end
-- ==== Proof.RefValue.lean ====
/-
  The reference's result, one operation at a time: it transposes the gate weight and then contracts the hidden axis
  of the activations against the transposed weight on the host. Read at an index `(r, e)`, the contraction is the
  sum over `k` of `x[r, k]` times the transposed weight at `(k, e)`, and the transpose at `(k, e)` is `w[e, k]`:
  the logits function, term by term, with no rearrangement of the sum.
-/
import proofs.«156389_g37881611550758_retrytranche2_1089_19_alg».proof.Proof.Gen.ReferenceIdeal.Read
import proofs.«156389_g37881611550758_retrytranche2_1089_19_alg».proof.Proof.Spec

noncomputable section

open scoped BigOperators

namespace Cert.ReferenceIdeal.RefValue

open Cert.ReferenceIdeal Cert.ReferenceIdeal.Read Idealize.ShloMosaic Idealize.ShloMosaic.ValueIdx

/-- The left operand's index of the contraction at output `(r, e)` and hidden coordinate `k` is `(r, k)`. -/
theorem lidx_eq (i : S8192x64.Idx) (k : Fin 2048) : lidx_main_v1 i k = ix2 (i 0) k :=
  funext fun a => Fin.ext (by match a with | ⟨0, _⟩ => rfl | ⟨1, _⟩ => rfl)

/-- The transposed weight at `(k, e)` is the weight at `(e, k)`. -/
theorem ridx_eq (i : S8192x64.Idx) (k : Fin 2048) : idx_main_v0 (ridx_main_v1 i k) = ix2 (i 1) k :=
  funext fun a => Fin.ext (by match a with | ⟨0, _⟩ => rfl | ⟨1, _⟩ => rfl)

/-- The reference's result is the logits function of its two arguments. -/
theorem ref_is_logits (x : (⟨S8192x2048, .f32⟩ : BufTy).Contents (Elt Ideal)) (w : (⟨S64x2048, .f32⟩ : BufTy).Contents (Elt Ideal)) :
    val_main_v1 (F := Ideal) x w = Cert.GateSpec.logits x w := by
  funext i
  rw [val_main_v1_apply]
  unfold Cert.GateSpec.logits
  refine Finset.sum_congr rfl fun k _ => ?_
  rw [val_main_v0_apply, lidx_eq, ridx_eq]
  rfl

end Cert.ReferenceIdeal.RefValue

end
-- ==== Proof.lean ====
/-
  The certificate of the mixture-of-experts gate: a kernel that computes the router logits `x · wᵀ`
  (8192 tokens × 2048 hidden coordinates against 64 experts) 1024 token rows per grid point into one resident
  result buffer, against the reference's product of `x` with the transposed weight.

  Over the extended reals both are the same sum, entry by entry: `∑ₖ x[r, k] · w[e, k]` over the 2048 hidden
  coordinates, in the same order — the kernel's matrix unit contracts into a zero accumulator, the reference
  transposes the weight and contracts on the host. No law of arithmetic is needed beyond reading each side at an
  index, so the finiteness of the inputs is never used.

  The three frames: the kernel's (at both instances) from the run of its body against proof data that RELATE what a
  point leaves in the result buffer to what it found (its own 1024 rows stored, the rest kept); the reference's from its
  run with the result dropped. The idealization rewrote nothing, so that conjunct is trivial.
-/
import proofs.«156389_g37881611550758_retrytranche2_1089_19_alg».proof.Defs
import proofs.«156389_g37881611550758_retrytranche2_1089_19_alg».proof.Proof.Gen.Kernel
import proofs.«156389_g37881611550758_retrytranche2_1089_19_alg».proof.Proof.Gen.KernelIdeal
import proofs.«156389_g37881611550758_retrytranche2_1089_19_alg».proof.Proof.Gen.ReferenceIdeal
import proofs.«156389_g37881611550758_retrytranche2_1089_19_alg».proof.Proof.Gen.Pre_finite_inputs
import proofs.«156389_g37881611550758_retrytranche2_1089_19_alg».proof.Proof.Gen.ReferenceIdeal.Run
import proofs.«156389_g37881611550758_retrytranche2_1089_19_alg».proof.Proof.Gen.ReferenceIdeal.Read
import proofs.«156389_g37881611550758_retrytranche2_1089_19_alg».proof.Proof.KernelBody
import proofs.«156389_g37881611550758_retrytranche2_1089_19_alg».proof.Proof.IdealBody
import proofs.«156389_g37881611550758_retrytranche2_1089_19_alg».proof.Proof.IdealValue
import proofs.«156389_g37881611550758_retrytranche2_1089_19_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference is two host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the logits of the arguments: the kernel's result array by the invariant over its grid
    points, the reference's by reading its two operations at an index; the arguments agree. -/
theorem algebraic : Cert.algebraic_KernelIdeal_ReferenceIdeal := by
  intro m ρ m' ρ' _ hagree
  refine ⟨_, Cert.KernelIdeal.GateValue.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.ref_is_logits _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
